-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .bf16⟩
  | .hbm, ⟨4, _⟩ => ⟨S4096x4096, .bf16⟩
  | .hbm, ⟨5, _⟩ => ⟨S1x4096, .f32⟩
  | .hbm, ⟨6, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .bf16 = 32 ∨ (Rect.block (s := S16384x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Affine.lean ====
/-
  The linear layer as ONE function of its three argument arrays, over the extended reals:

      out (p, q) = (Σ k < 4096, x (p, k) · w (k, q)) + b q        for p < 16384, q < 4096.

  Both programs compute this function: the sum over k is a commutative-monoid sum, so the order in which a
  matrix unit or a host contraction adds the products does not matter, and a change of float format is the
  identity on extended reals.  Nothing here needs the inputs finite.
-/
import Idealize.ShloMosaic.PureOps.Ideal
import Idealize.ShloMosaic.Lib.ValueIdx

noncomputable section

open scoped BigOperators

namespace Cert.Affine

open Idealize.ShloMosaic Idealize.ShloMosaic.ValueIdx

/-- Entry `(p, q)` of `x · w + b`: row `p` of `x` against column `q` of `w`, plus the bias of column `q`. -/
def entry (x : (⟨2, ![16384, 4096]⟩ : Shape).Idx → EReal) (w : (⟨2, ![4096, 4096]⟩ : Shape).Idx → EReal)
    (b : (⟨1, ![4096]⟩ : Shape).Idx → EReal) (p : Fin 16384) (q : Fin 4096) : EReal :=
  (∑ k : Fin 4096, x (ix2 p k) * w (ix2 k q)) + b (ix1 q)

/-- The whole result array `x · w + b`, index by index. -/
def affine (x : (⟨2, ![16384, 4096]⟩ : Shape).Idx → EReal) (w : (⟨2, ![4096, 4096]⟩ : Shape).Idx → EReal)
    (b : (⟨1, ![4096]⟩ : Shape).Idx → EReal) : (⟨2, ![16384, 4096]⟩ : Shape).Idx → EReal :=
  fun i => entry x w b (i 0) (i 1)

/-- The array at the index with coordinates `(p, q)`. -/
theorem affine_ix2 (x : (⟨2, ![16384, 4096]⟩ : Shape).Idx → EReal) (w : (⟨2, ![4096, 4096]⟩ : Shape).Idx → EReal)
    (b : (⟨1, ![4096]⟩ : Shape).Idx → EReal) (p : Fin 16384) (q : Fin 4096) :
    affine x w b (ix2 p q) = (∑ k : Fin 4096, x (ix2 p k) * w (ix2 k q)) + b (ix1 q) := rfl

end Cert.Affine

end
-- ==== Proof.RefLinear.lean ====
/-
  The reference's result is the linear layer `Cert.Affine.affine` of its arguments: its contraction over the
  shared axis is the sum over `k` of `x (p, k) · w (k, q)`, and the bias, broadcast first to one row and then
  over all rows, reads `b q` at `(p, q)`.
-/
import proofs.«115765_j81243601371170_1_alg».proof.Proof.Gen.ReferenceIdeal.Read
import proofs.«115765_j81243601371170_1_alg».proof.Proof.Affine

noncomputable section

open scoped BigOperators

namespace Cert.ReferenceIdeal.Linear

open Cert.ReferenceIdeal Cert.ReferenceIdeal.Gen Cert.ReferenceIdeal.Read
open Idealize.ShloMosaic Idealize.ShloMosaic.ValueIdx

/-- The left operand is read at row `i 0`, column `k`. -/
theorem lidx_eq (i : S16384x4096.Idx) (k : Fin 4096) : lidx_main_v0 i k = ix2 (i 0) k :=
  funext fun a => by match a with | ⟨0, _⟩ => rfl | ⟨1, _⟩ => rfl

/-- The right operand is read at row `k`, column `i 1`. -/
theorem ridx_eq (i : S16384x4096.Idx) (k : Fin 4096) : ridx_main_v0 i k = ix2 k (i 1) :=
  funext fun a => by match a with | ⟨0, _⟩ => rfl | ⟨1, _⟩ => rfl

/-- The bias, through its two broadcasts, is read at the column `i 1`. -/
theorem bidx_eq (i : S16384x4096.Idx) : idx_main_v1 (idx_main_v2 i) = ix1 (i 1) :=
  funext fun a => by match a with | ⟨0, _⟩ => rfl

/-- The reference's last stage, at `Ideal`, is `x · w + b`. -/
theorem result_eq (x : (⟨S16384x4096, .f32⟩ : BufTy).Contents (Elt Ideal)) (w : (⟨S4096x4096, .f32⟩ : BufTy).Contents (Elt Ideal))
    (b : (⟨S4096, .f32⟩ : BufTy).Contents (Elt Ideal)) :
    val_main_v3 (F := Ideal) x w b = Cert.Affine.affine x w b := by
  funext i
  rw [val_main_v3_apply, val_main_v0_apply, val_main_v2_apply, val_main_v1_apply, bidx_eq]
  simp only [lidx_eq, ridx_eq]
  rfl

end Cert.ReferenceIdeal.Linear

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelLinear.lean ====
/-
  The kernel's result array is the linear layer `Cert.Affine.affine` of its arguments.

  The grid has 4 × 32 points; point `t` owns the 512 × 1024 block of the result whose block indices are
  `(r, s)` with `r < 32` a block of rows and `s < 4` a block of columns.  There it multiplies the 512 rows
  `512 r … 512 r + 511` of the (format-converted, hence unchanged) first argument by the 1024 columns
  `1024 s … 1024 s + 1023` of the second, all 4096 terms of each inner product at once, and adds the bias
  entries of those columns.  So entry `(p, q)` of the block is entry `(512 r + p, 1024 s + q)` of `x · w + b`;
  the 128 blocks tile the array.
-/
import proofs.«115765_j81243601371170_1_alg».proof.Proof.Gen.KernelIdeal.Value
import proofs.«115765_j81243601371170_1_alg».proof.Proof.Affine
import proofs.«115765_j81243601371170_1_alg».proof.Proof.LibRowOps
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open scoped BigOperators

namespace Cert.KernelIdeal.Linear

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block: the body's stored value at an entry -/

/-- Entry `(p, q)` of what the body stores: the inner product of row `p` of the row block with column `q` of the
    column block, plus entry `q` of the bias block. -/
theorem pay_apply (x0 : Vec Ideal S512x4096 .bf16) (x1 : Vec Ideal S4096x1024 .bf16) (x2 : Vec Ideal S1x1024 .f32)
    (p : Fin 512) (q : Fin 1024) :
    k0_pay1 (F := Ideal) x0 x1 x2 (ix2 p q) = (∑ k : Fin 4096, x0 (ix2 p k) * x1 (ix2 k q)) + x2 (ix2 (0 : Fin 1) q) := by
  unfold k0_pay1
  simp only [shapeCast_self]
  exact congrArg₂ (· + ·) (Cert.RowOps.matmul_apply _ none x0 x1 p q) (broadcastTo_1b_ab_apply x2 _ p q)

/-- The same at any index of the block. -/
theorem pay_at (x0 : Vec Ideal S512x4096 .bf16) (x1 : Vec Ideal S4096x1024 .bf16) (x2 : Vec Ideal S1x1024 .f32) (y : S512x1024.Idx) :
    k0_pay1 (F := Ideal) x0 x1 x2 y = (∑ k : Fin 4096, x0 (ix2 (y 0) k) * x1 (ix2 k (y 1))) + x2 (ix2 (0 : Fin 1) (y 1)) := by
  obtain ⟨p, q, rfl⟩ : ∃ (p : Fin 512) (q : Fin 1024), y = ix2 p q := ⟨y 0, y 1, eq_ix2 y⟩
  exact pay_apply x0 x1 x2 p q

/-! ## The arrays the region finds -/

/-- The left operand the region finds is the first argument: a change of float format is the identity. -/
theorem V_lhs (c : Dev nD) : (V m c main_v0 : S16384x4096.Idx → EReal) = m ((c : Thread nD τ).loc main_arg0) := by
  dsimp only [V, hostOps0]; after_results; rfl

/-- The right operand the region finds is the second argument, for the same reason. -/
theorem V_rhs (c : Dev nD) : (V m c main_v1 : S4096x4096.Idx → EReal) = m ((c : Thread nD τ).loc main_arg1) := by
  dsimp only [V, hostOps0]; after_results; rfl

/-- The bias array the region finds is the third argument laid out as one row. -/
theorem V_bias (c : Dev nD) : (V m c main_v2 : S1x4096.Idx → EReal)
    = shapeCast S1x4096 (m ((c : Thread nD τ).loc main_arg2) : S4096.Idx → EReal) shapeCasts_S4096_S1x4096 := by
  dsimp only [V, hostOps0]; after_results; rfl

/-! ## The windows' blocks as entries of the arguments

A block's entry `y` sits in its array at block index × block size + `y`, axis by axis. -/

/-- An entry of the row block at point `t` is an entry of the first argument. -/
theorem lhs_blk (c : Dev nD) (t : Fin cfg0.N) (y : S512x4096.Idx) (i : S16384x4096.Idx)
    (h0 : (i 0).val = win0_0.index t 0 * 512 + (y 0).val) (h1 : (i 1).val = win0_0.index t 1 * 4096 + (y 1).val) :
    (iblk m c 0 t : Vec Ideal S512x4096 .bf16) y = (m ((c : Thread nD τ).loc main_arg0) : S16384x4096.Idx → EReal) i := by
  unfold iblk
  rw [View.read_apply]
  show (V m c main_v0 : S16384x4096.Idx → EReal) _ = _
  rw [V_lhs]
  congr 1
  funext a
  apply Fin.ext
  match a with
  | ⟨0, _⟩ => show win0_0.index t 0 * 512 + 1 * (y 0).val = (i 0).val; omega
  | ⟨1, _⟩ => show win0_0.index t 1 * 4096 + 1 * (y 1).val = (i 1).val; omega

/-- An entry of the column block at point `t` is an entry of the second argument. -/
theorem rhs_blk (c : Dev nD) (t : Fin cfg0.N) (y : S4096x1024.Idx) (i : S4096x4096.Idx)
    (h0 : (i 0).val = win0_1.index t 0 * 4096 + (y 0).val) (h1 : (i 1).val = win0_1.index t 1 * 1024 + (y 1).val) :
    (iblk m c 1 t : Vec Ideal S4096x1024 .bf16) y = (m ((c : Thread nD τ).loc main_arg1) : S4096x4096.Idx → EReal) i := by
  unfold iblk
  rw [View.read_apply]
  show (V m c main_v1 : S4096x4096.Idx → EReal) _ = _
  rw [V_rhs]
  congr 1
  funext a
  apply Fin.ext
  match a with
  | ⟨0, _⟩ => show win0_1.index t 0 * 4096 + 1 * (y 0).val = (i 0).val; omega
  | ⟨1, _⟩ => show win0_1.index t 1 * 1024 + 1 * (y 1).val = (i 1).val; omega

/-- An entry of the bias block at point `t` is an entry of the third argument: the one-row layout keeps the
    row-major position, which on a single row is the column. -/
theorem bias_blk (c : Dev nD) (t : Fin cfg0.N) (y : S1x1024.Idx) (j : Fin 4096)
    (h0 : win0_2.index t 0 = 0) (h1 : j.val = win0_2.index t 1 * 1024 + (y 1).val) :
    (iblk m c 2 t : Vec Ideal S1x1024 .f32) y = (m ((c : Thread nD τ).loc main_arg2) : S4096.Idx → EReal) (ix1 j) := by
  unfold iblk
  rw [View.read_apply]
  show (V m c main_v2 : S1x4096.Idx → EReal) _ = _
  rw [V_bias]
  refine shapeCast_apply (s := S4096) (t := S1x4096) _ _ _ (ix1 j) ?_
  rw [Shape.rowMajor_val_two, Shape.rowMajor_val_one]
  show j.val = (win0_2.index t 0 * 1 + 1 * (y 0).val) * 4096 + (win0_2.index t 1 * 1024 + 1 * (y 1).val)
  have hy : (y 0).val < 1 := (y 0).isLt
  omega

/-! ## The index maps over the grid -/

/-- Decided over the 128 points: the row block moves with the output's row-block index and spans all columns; the
    column block and the bias block move with the output's column-block index; the output's block indices stay
    below 32 and 4. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every pair of a row-block index and a column-block index is some point's. -/
theorem idx_onto : ∀ (r : Fin 32) (s : Fin 4), ∃ t : Fin cfg0.N, win0_3.index t = ![r.val, s.val] :=
  (by decide +kernel : ∀ (r : Fin 32) (s : Fin 4), ∃ t : Fin grid0.N, win0_3.index t = ![r.val, s.val])

/-! ## What a point writes back, and the whole array -/

/-- Point `t` writes back block `t` of `x · w + b`. -/
theorem flushed_eq (c : Dev nD) (t : Fin cfg0.N) :
    (dats m 0 c).flushed 3 t = ((cfg0.win 3).blk t).view.read (Elt Ideal)
      (Cert.Affine.affine (m ((c : Thread nD τ).loc main_arg0)) (m ((c : Thread nD τ).loc main_arg1)) (m ((c : Thread nD τ).loc main_arg2))) := by
  rw [flushed3]
  unfold out0_3
  rw [View.canon_unit_zero hz]
  simp only [View.ld_unit_zero (S := S512x4096) hz, View.ld_unit_zero (S := S4096x1024) hz, View.ld_unit_zero (S := S1x1024) hz]
  obtain ⟨e00, e01, e10, e11, e20, e21, b0, b1⟩ := idx_facts t
  funext j
  show k0_pay1 (F := Ideal) (iblk m c 0 t) (iblk m c 1 t) (iblk m c 2 t) j = _
  rw [View.read_apply]
  refine (pay_at (iblk m c 0 t) (iblk m c 1 t) (iblk m c 2 t) j).trans ?_
  unfold Cert.Affine.affine Cert.Affine.entry
  refine congrArg₂ (· + ·) (Finset.sum_congr rfl fun k _ => congrArg₂ (· * ·) ?_ ?_) ?_
  · refine lhs_blk m c t (ix2 (j 0) k) _ ?_ ?_
    · show win0_3.index t 0 * 512 + 1 * (j 0).val = win0_0.index t 0 * 512 + (j 0).val; omega
    · show k.val = win0_0.index t 1 * 4096 + k.val; omega
  · refine rhs_blk m c t (ix2 k (j 1)) _ ?_ ?_
    · show k.val = win0_1.index t 0 * 4096 + k.val; omega
    · show win0_3.index t 1 * 1024 + 1 * (j 1).val = win0_1.index t 1 * 1024 + (j 1).val; omega
  · refine bias_blk m c t (ix2 (0 : Fin 1) (j 1)) _ e20 ?_
    show win0_3.index t 1 * 1024 + 1 * (j 1).val = win0_2.index t 1 * 1024 + (j 1).val; omega

/-- An index of the result array is in point `t`'s block iff each coordinate is in the block's range on its axis. -/
theorem mem_blk (t : Fin cfg0.N) (i : S16384x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3).slice (win0_3.rect t)).set ↔ _
  rw [View.set_slice_whole, Rect.mem_set_unit]
  exact Iff.rfl

/-- The 128 blocks tile the result array: entry `(p, q)` lies in the block with row-block index `p / 512` and
    column-block index `q / 1024`. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the run the result array is `x · w + b` of the arguments. -/
theorem final (c : Dev nD) : (dats m 0 c).arrAt 3 cfg0.N
    = Cert.Affine.affine (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the idealized kernel terminates with the result array at `x · w + b` of the
    arguments and the arguments unchanged. -/
theorem run : θ_run defs (onTc (τ := τ) (main (F := Ideal))) ⟨m, fun _ => 0, ρ⟩ fun r => ∀ c : Dev nD,
      r.2.mem ((c : Thread nD τ).loc main_v3)
        = Cert.Affine.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Linear

end
-- ==== Proof.lean ====
/-
  A linear layer `out = x · w + b` over f32[16384, 4096] × f32[4096, 4096] + f32[4096]: a tiled kernel (a grid of
  4 × 32 points, each multiplying a 512 × 4096 row block by a 4096 × 1024 column block on the matrix unit and
  adding a 1 × 1024 bias block) against one whole host contraction plus a broadcast bias.

  Over the extended reals both are the one function `Cert.Affine.affine`:

      out (p, q) = (Σ k < 4096, x (p, k) · w (k, q)) + b q.

  The kernel first narrows `x` and `w` to bf16, which is the identity on extended reals, and lays `b` out as one
  row; the matrix unit's product into a zero accumulator is the plain sum of the 4096 products, as is the host's
  contraction; the blocks tile the result.  The law joining the two sides is only that a finite sum does not
  depend on how it is grouped, so the inputs' finiteness is never used.

  The kernel's side is `Proof/KernelLinear.lean` (over the generated block-by-block value leg), the reference's
  `Proof/RefLinear.lean` (over its generated run read one operation at a time).  The three frames are the
  generated ones; the idealization rewrote nothing, so `preserves` is `True`.
-/
import proofs.«115765_j81243601371170_1_alg».proof.Defs
import proofs.«115765_j81243601371170_1_alg».proof.Proof.Gen.Kernel
import proofs.«115765_j81243601371170_1_alg».proof.Proof.Gen.Kernel.Skeleton
import proofs.«115765_j81243601371170_1_alg».proof.Proof.Gen.Kernel.Launch
import proofs.«115765_j81243601371170_1_alg».proof.Proof.Gen.Kernel.Points
import proofs.«115765_j81243601371170_1_alg».proof.Proof.Gen.Kernel.Frame
import proofs.«115765_j81243601371170_1_alg».proof.Proof.Gen.KernelIdeal
import proofs.«115765_j81243601371170_1_alg».proof.Proof.Gen.KernelIdeal.Skeleton
import proofs.«115765_j81243601371170_1_alg».proof.Proof.Gen.KernelIdeal.Launch
import proofs.«115765_j81243601371170_1_alg».proof.Proof.Gen.KernelIdeal.Points
import proofs.«115765_j81243601371170_1_alg».proof.Proof.Gen.KernelIdeal.Frame
import proofs.«115765_j81243601371170_1_alg».proof.Proof.Gen.KernelIdeal.Value
import proofs.«115765_j81243601371170_1_alg».proof.Proof.Gen.ReferenceIdeal
import proofs.«115765_j81243601371170_1_alg».proof.Proof.Gen.ReferenceIdeal.Run
import proofs.«115765_j81243601371170_1_alg».proof.Proof.Gen.ReferenceIdeal.Read
import proofs.«115765_j81243601371170_1_alg».proof.Proof.Gen.Pre_finite_inputs
import proofs.«115765_j81243601371170_1_alg».proof.Proof.Affine
import proofs.«115765_j81243601371170_1_alg».proof.Proof.RefLinear
import proofs.«115765_j81243601371170_1_alg».proof.Proof.KernelLinear
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `w` and `b`, both programs end with the result array at `x · w + b`. -/
theorem algebraic : Cert.algebraic_KernelIdeal_ReferenceIdeal := by
  intro m ρ m' ρ' _ hagree
  refine ⟨_, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Linear.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
